-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : IVec S1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg5 main_v24
  let main_c_9 : IVec S_ 32 := constantI S_ 32 100000#32
  let main_v26 : IVec S1600000 32 := broadcastInDim S1600000 ![] bcast_S_S1600000 main_c_9
  let main_v27 : IVec S1600000 1 := cmpi .slt main_arg5 main_v26
  let main_v28 : IVec S1600000 1 := andi main_v25 main_v27
  let main_c_10 : IVec S_ 1 := constantI S_ 1 1#1
  let main_v29 : IVec S_ 1 := (fun x v => Host.reduce IntOp.andi x v reducesTo_S1600000_S_d0 h_S_) main_v28 main_c_10
  let main_v30 : IVec S_ 1 := andi main_v23 main_v29
  main_v30

def fn {F : FTy → Type} [FloatOps F] (main_arg0 : FVec F S100000x128 .f32) (main_arg1 : FVec F S100000x128 .f32) (main_arg2 : FVec F S1600000 .f32) (main_arg3 : FVec F S128x128 .f32) (main_arg4 : FVec F S128x128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S_ : Shape := ⟨0, ![]⟩
abbrev S1600000x1 : Shape := ⟨2, ![1600000, 1]⟩
abbrev S1600000x128 : Shape := ⟨2, ![1600000, 128]⟩
abbrev S256x128 : Shape := ⟨2, ![256, 128]⟩
abbrev S4000x128 : Shape := ⟨2, ![4000, 128]⟩
abbrev S4000x256 : Shape := ⟨2, ![4000, 256]⟩

abbrev nBuf : Space → Nat
  | .hbm => 34
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .f32⟩
  | .hbm, ⟨3, _⟩ => ⟨S128x128, .f32⟩
  | .hbm, ⟨4, _⟩ => ⟨S128x128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000x1, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S256x128, .f32⟩
  | .hbm, ⟨32, _⟩ => ⟨S256x128, .bf16⟩
  | .hbm, ⟨33, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S256x128, .bf16⟩
  | .local _ .vmem, ⟨5, _⟩ => ⟨S4000x128, .f32⟩
  | .local _ .vmem, ⟨6, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_c_1 : Ref sig .tc := ⟨.hbm, 16, rfl⟩
abbrev main_v2 : Ref sig .tc := ⟨.hbm, 17, rfl⟩
abbrev main_v3 : Ref sig .tc := ⟨.hbm, 18, rfl⟩
abbrev main_c_2 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S128x128_S128x128_S256x128_d0 : Shape.Concatenates [S128x128, S128x128] S256x128 0
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v13) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .f32⟩
  | .hbm, ⟨3, _⟩ => ⟨S128x128, .f32⟩
  | .hbm, ⟨4, _⟩ => ⟨S128x128, .f32⟩
  | .hbm, ⟨5, _⟩ => ⟨S1600000, .i32⟩
  | .hbm, ⟨6, _⟩ => ⟨S1600000, .i32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SrcRange.lean ====
/-
  What the precondition says of the edges' source ids, and what follows for the row each edge reads.

  The precondition's last conjunct is that every source id, read as a signed 32-bit integer, is a row number of the
  node-feature array: 0 ≤ id < 100000. On such an id a clamp into [0, 99999] changes nothing, and the test "id < 0",
  which would move a negative id up by 100000, is false. So whether the ids are first clamped and then tested, or only
  tested, the row read is the id itself.
-/
import proofs.«431246_j3023656976523_3_alg».proof.Pre_finite_inputs
import Idealize.ShloMosaic.Lib.ReduceAll
import Idealize.ShloMosaic.Lib.Affine
import Idealize.ShloMosaic.Lib.ValueIdx

noncomputable section

namespace Cert.SrcRange

open Idealize.ShloMosaic

/-- A 32-bit word that, read signed, is a row number of an array of 100000 rows. -/
def IsRow (a : BitVec 32) : Prop := 0 ≤ a.toInt ∧ a.toInt < 100000

private theorem toInt_zero : (0#32 : BitVec 32).toInt = 0 := by decide
private theorem toInt_last : (99999#32 : BitVec 32).toInt = 99999 := by decide
private theorem toInt_rows : (100000#32 : BitVec 32).toInt = 100000 := by decide

/-- Clamping a row number into [0, 99999] leaves it as it is. -/
theorem clamp_row {a : BitVec 32} (h : IsRow a) : IntOp.minsi 99999#32 (IntOp.maxsi 0#32 a) = a := by
  obtain ⟨h0, h1⟩ := h
  have hmax : IntOp.maxsi 0#32 a = a := by
    unfold IntOp.maxsi
    exact if_neg (by rw [BitVec.slt_iff_toInt_lt, toInt_zero]; omega)
  rw [hmax]
  unfold IntOp.minsi
  exact if_neg (by rw [BitVec.slt_iff_toInt_lt, toInt_last]; omega)

/-- A row number does not test negative. -/
theorem not_neg_row {a : BitVec 32} (h : IsRow a) : ¬ IntOp.cmpi .slt a 0#32 = 1#1 := by
  rw [IntOp.cmpi_slt, toInt_zero]
  exact not_lt.2 h.1

/-- So the wrap of negative ids returns a row number unchanged, whatever it would have put in its place. -/
theorem wrap_row {a : BitVec 32} (h : IsRow a) (b : BitVec 32) :
    Scalar.select (IntOp.cmpi .slt a 0#32) b a = a :=
  if_neg (not_neg_row h)

/-! ## Reading the precondition -/

instance : Subsingleton Cert.Pre_finite_inputs.S_.Idx := ⟨fun a b => funext fun d => d.elim0⟩

/-- Under the precondition every source id is a row number. -/
theorem rows_of_pre [Cert.Pre_finite_inputs.Facts] {F : FTy → Type} [FloatOps F]
    (a0 a1 : FVec F Cert.Pre_finite_inputs.S100000x128 .f32) (a2 : FVec F Cert.Pre_finite_inputs.S1600000 .f32)
    (a3 a4 : FVec F Cert.Pre_finite_inputs.S128x128 .f32) (a5 a6 : IVec Cert.Pre_finite_inputs.S1600000 32)
    (h : Cert.Pre_finite_inputs.fn (F := F) a0 a1 a2 a3 a4 a5 a6 = (fun _ => 1#1))
    (e : Cert.Pre_finite_inputs.S1600000.Idx) : IsRow (a5 e) := by
  have h0 := congrFun h ValueIdx.ix0
  dsimp only [Cert.Pre_finite_inputs.fn, Cert.Pre_finite_inputs.fn_part1] at h0
  have h29 := (IntOp.andi_eq_one.1 h0).2
  have h28 := Host.reduce_andi_all _ _ _ _ _ h29 e
  obtain ⟨hge, hlt⟩ := IntOp.andi_eq_one.1 h28
  have hge' : IntOp.cmpi .sge (a5 e) 0#32 = 1#1 := hge
  have hlt' : IntOp.cmpi .slt (a5 e) 100000#32 = 1#1 := hlt
  rw [IntOp.cmpi_sge, toInt_zero] at hge'
  rw [IntOp.cmpi_slt, toInt_rows] at hlt'
  exact ⟨hge', hlt'⟩

end Cert.SrcRange

end
-- ==== Proof.DenseBlock.lean ====
/-
  One grid point of the dense stage, read at one entry over the extended reals.

  The body lays a 4000×128 block of the aggregated features next to the same 4000 rows of the node features,
  giving a 4000×256 operand, and multiplies it by a 256×128 matrix into a zero accumulator. A change of float
  format is the identity on extended reals, so entry (p, j) of the product is the 256-term contraction
      ∑_{k < 256} [a | b](p, k) · w(k, j),
  and a sum over 256 = 128 + 128 terms splits into the sum over the first 128 and the sum over the last 128:
      ∑_{k < 128} a(p, k) · w(k, j)  +  ∑_{k < 128} b(p, k) · w(128 + k, j).
  Only commutativity and associativity of + on the extended reals are used, so no finiteness is needed.
-/
import proofs.«431246_j3023656976523_3_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.DenseBlock

open Cert.KernelIdeal Cert.KernelIdeal.Gen Idealize.ShloMosaic Idealize.ShloMosaic.ValueIdx

/-! ## The contraction's operand indices, axis by axis -/

theorem lhs_dense_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_dense_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_dense_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_dense_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The product into a zero accumulator at entry (p, j): the plain 256-term contraction. -/
theorem dense_apply (lhs : FVec Ideal S4000x256 .bf16) (rhs : FVec Ideal S256x128 .bf16) (p : Fin 4000) (j : Fin 128) :
    matmul dot_S4000x256_S256x128_S4000x128_1_0_0_1_n_n none lhs rhs (constant S4000x128 .f32 0x00000000#32) (ix2 p j)
      = ∑ k : Fin 256, lhs (ix2 p k) * rhs (ix2 k j) := by
  show FloatOps.matmul dot_S4000x256_S256x128_S4000x128_1_0_0_1_n_n none lhs rhs (constant S4000x128 .f32 0x00000000#32) (ix2 p j) = _
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p j) ((contrEquiv1 dot_S4000x256_S256x128_S4000x128_1_0_0_1_n_n 256 rfl rfl).symm k) = ix2 p k := funext fun a => Fin.ext (by
    match a with
    | ⟨0, _⟩ => exact lhs_dense_0 _ _
    | ⟨1, _⟩ => exact (lhs_dense_1 _ _).trans hk)
  have er : dot_S4000x256_S256x128_S4000x128_1_0_0_1_n_n.rhsIdx (ix2 p j) ((contrEquiv1 dot_S4000x256_S256x128_S4000x128_1_0_0_1_n_n 256 rfl rfl).symm k) = ix2 k j := funext fun a => Fin.ext (by
    match a with
    | ⟨0, _⟩ => exact (rhs_dense_0 _ _).trans hk
    | ⟨1, _⟩ => exact rhs_dense_1 _ _)
  rw [el, er]

/-! ## Two blocks side by side, read at a column -/

/-- A column among the first 128 of [a | b] reads a. -/
theorem beside_left {α : Type} (a b : S4000x128.Idx → α) (p : Fin 4000) (k : Fin 128) :
    concatenate S4000x256 1 [⟨S4000x128, a⟩, ⟨S4000x128, b⟩] concatenates_S4000x128_S4000x128_S4000x256_d1
      (ix2 p (Fin.castAdd 128 k)) = a (ix2 p k) :=
  concatenate_pair_apply_left (1 : Fin S4000x256.rank) a b concatenates_S4000x128_S4000x128_S4000x256_d1
    (ix2 p (Fin.castAdd 128 k)) rfl (ix2 p k) (fun d => match d with | ⟨0, _⟩ => rfl | ⟨1, _⟩ => rfl)

/-- A column among the last 128 of [a | b] reads b, 128 columns to the left. -/
theorem beside_right {α : Type} (a b : S4000x128.Idx → α) (p : Fin 4000) (k : Fin 128) :
    concatenate S4000x256 1 [⟨S4000x128, a⟩, ⟨S4000x128, b⟩] concatenates_S4000x128_S4000x128_S4000x256_d1
      (ix2 p (Fin.natAdd 128 k)) = b (ix2 p k) :=
  concatenate_pair_apply_right (1 : Fin S4000x256.rank) a b concatenates_S4000x128_S4000x128_S4000x256_d1
    (ix2 p (Fin.natAdd 128 k)) rfl rfl (ix2 p k)
    (fun d hd => match d, hd with | ⟨0, _⟩, _ => rfl | ⟨1, _⟩, hd => absurd rfl hd)
    (by show k.val + 128 = 128 + k.val; omega)

/-! ## The body's one store, at an entry -/

/-- Entry (p, j) of what the body stores: the contraction of row p of the first block with the upper half of the
    matrix, plus that of row p of the second block with its lower half. -/
theorem pay_apply (v0 v3 : Vec Ideal S4000x128 .f32) (v6 : Vec Ideal S256x128 .bf16) (p : Fin 4000) (j : Fin 128) :
    k0_pay1 (F := Ideal) v0 v3 v6 (ix2 p j)
      = ∑ k : Fin 128, v0 (ix2 p k) * v6 (ix2 (Fin.castAdd 128 k) j)
        + ∑ k : Fin 128, v3 (ix2 p k) * v6 (ix2 (Fin.natAdd 128 k) j) := by
  unfold k0_pay1
  rw [dense_apply, shapeCast_self, shapeCast_self]
  refine (Fin.sum_univ_add (M := EReal) (a := 128) (b := 128) _).trans ?_
  congr 1
  · refine Finset.sum_congr rfl fun k _ => ?_
    rw [beside_left]; rfl
  · refine Finset.sum_congr rfl fun k _ => ?_
    rw [beside_right]; rfl

end Cert.KernelIdeal.DenseBlock

end
-- ==== Proof.DenseArray.lean ====
/-
  From the grid's blocks to the whole result array.

  Grid point t of the dense stage works on rows 4000·t … 4000·t + 3999: it is handed those rows of the aggregated
  features and of the node features, and the whole stacked weight matrix, and writes those rows of the result. So row r
  of the result is written by point r / 4000, and entry (r, j) ends at
      ∑_{k < 128} hi(r, k) · wcat(k, j)  +  ∑_{k < 128} x(r, k) · wcat(128 + k, j),
  with hi, x and wcat the three arrays as the region finds them. The 25 blocks tile the 100000 rows, so this describes
  the whole array.
-/
import proofs.«431246_j3023656976523_3_alg».proof.Proof.Gen.KernelIdeal.Value
import proofs.«431246_j3023656976523_3_alg».proof.Proof.DenseBlock
import Idealize.ShloMosaic.Lib.Pipeline.Value
import Idealize.ShloMosaic.Lib.ValueIdx

set_option maxRecDepth 16384

noncomputable section

open scoped BigOperators

namespace Cert.KernelIdeal.DenseArray

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

/-- Position k of row (i 0) of a 100000×128 array. -/
abbrev inRow (i : S100000x128.Idx) (k : Fin 128) : S100000x128.Idx :=
  ix2 (n0 := 100000) (n1 := 128) ⟨(i 0).val, (i 0).isLt⟩ k

/-- Position (k, i 1) of the stacked 256×128 matrix. -/
abbrev inCol (i : S100000x128.Idx) (k : Fin 256) : S256x128.Idx :=
  ix2 (n0 := 256) (n1 := 128) k ⟨(i 1).val, (i 1).isLt⟩

/-- The dense stage's result as one function of the three arrays it is launched on. -/
def denseOut (hi x : S100000x128.Idx → EReal) (wcat : S256x128.Idx → EReal) : S100000x128.Idx → EReal := fun i =>
  ∑ k : Fin 128, hi (inRow i k) * wcat (inCol i (Fin.castAdd 128 k))
    + ∑ k : Fin 128, x (inRow i k) * wcat (inCol i (Fin.natAdd 128 k))

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 25 points: the three row-blocked windows sit at block (t, 0), the weights at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Window 0's block at point t is rows 4000·t … of the array it stages. -/
theorem read_rows0 (t : Fin cfg0.N) (A : S100000x128.Idx → EReal) (y : S4000x128.Idx) (i : S100000x128.Idx)
    (h0 : (i 0).val = 4000 * t.val + (y 0).val) (h1 : (i 1).val = (y 1).val) :
    ((cfg0.win 0).blk t).view.read (Elt Ideal) A y = A i := by
  obtain ⟨e0, e1, -⟩ := idx_facts t
  rw [View.read_apply]
  show A _ = A _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- Window 1's block at point t is the same rows of its array. -/
theorem read_rows1 (t : Fin cfg0.N) (A : S100000x128.Idx → EReal) (y : S4000x128.Idx) (i : S100000x128.Idx)
    (h0 : (i 0).val = 4000 * t.val + (y 0).val) (h1 : (i 1).val = (y 1).val) :
    ((cfg0.win 1).blk t).view.read (Elt Ideal) A y = A i := by
  obtain ⟨-, -, e0, e1, -⟩ := idx_facts t
  rw [View.read_apply]
  show A _ = A _
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- Window 2's block at any point is the whole stacked matrix. -/
theorem read_whole2 (t : Fin cfg0.N) (A : S256x128.Idx → EReal) (y : S256x128.Idx) (i : S256x128.Idx)
    (h0 : (i 0).val = (y 0).val) (h1 : (i 1).val = (y 1).val) :
    ((cfg0.win 2).blk t).view.read (Elt Ideal) A y = A i := by
  obtain ⟨-, -, -, -, e0, e1, -⟩ := idx_facts t
  rw [View.read_apply]
  show A _ = A _
  congr 1
  funext a
  apply Fin.ext
  match a with
  | ⟨0, _⟩ => show win0_2.index t (0 : Fin 2) * 256 + 1 * (y 0).val = (i 0).val; rw [e0, h0]; omega
  | ⟨1, _⟩ => show win0_2.index t (1 : Fin 2) * 128 + 1 * (y 1).val = (i 1).val; rw [e1, h1]; omega

/-- The body's store at point t, over blocks read off ANY three arrays, is block t of `denseOut` of those arrays. -/
theorem point_eq (t : Fin cfg0.N) (A0 A1 : S100000x128.Idx → EReal) (A2 : S256x128.Idx → EReal) :
    (cfg0.win 3).cut (grid0.coords t)
        (k0_pay1 (F := Ideal) (((cfg0.win 0).blk t).view.read (Elt Ideal) A0)
          (((cfg0.win 1).blk t).view.read (Elt Ideal) A1) (((cfg0.win 2).blk t).view.read (Elt Ideal) A2))
      = ((cfg0.win 3).blk t).view.read (Elt Ideal) (denseOut A0 A1 A2) := by
  obtain ⟨-, -, -, -, -, -, e0, e1⟩ := idx_facts t
  funext j
  obtain ⟨p, q, rfl⟩ : ∃ (p : Fin 4000) (q : Fin 128), j = ix2 p q := ⟨j 0, j 1, eq_ix2 j⟩
  rw [View.read_apply]
  have hr : ((((cfg0.win 3).blk t).view.emb (ix2 p q)) 0).val = 4000 * t.val + p.val := by
    show win0_3.index t (0 : Fin 2) * 4000 + 1 * p.val = _; rw [e0]; omega
  have hc : ((((cfg0.win 3).blk t).view.emb (ix2 p q)) 1).val = q.val := by
    show win0_3.index t (1 : Fin 2) * 128 + 1 * q.val = _; rw [e1]; omega
  refine (DenseBlock.pay_apply _ _ _ p q).trans ?_
  show _ = denseOut A0 A1 A2 _
  unfold denseOut
  congr 1
  · refine Finset.sum_congr rfl fun k _ => ?_
    congr 1
    · exact read_rows0 t A0 (ix2 p k) _ hr rfl
    · exact read_whole2 t A2 (ix2 (Fin.castAdd 128 k) q) _ rfl hc
  · refine Finset.sum_congr rfl fun k _ => ?_
    congr 1
    · exact read_rows1 t A1 (ix2 p k) _ hr rfl
    · exact read_whole2 t A2 (ix2 (Fin.natAdd 128 k) q) _ rfl hc

/-- What point t writes back is block t of `denseOut` of the arrays as the region finds them. -/
theorem flushed_eq (c : Dev nD) (t : Fin cfg0.N) :
    (dats m 0 c).flushed 3 t = ((cfg0.win 3).blk t).view.read (Elt Ideal)
      (denseOut (V m c (Pipeline.arrRef spec0 0)) (V m c (Pipeline.arrRef spec0 1)) (V m c (Pipeline.arrRef spec0 2))) := by
  rw [Value.flushed3]
  unfold out0_3
  rw [View.canon_unit_zero hz]
  simp only [View.ld_unit_zero (S := S4000x128) hz, View.ld_unit_zero (S := S256x128) hz]
  unfold iblk
  exact point_eq t _ _ _

/-- An index of the array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v16).slice (win0_3.rect t)).set ↔ _
  rw [View.set_slice_whole, Rect.mem_set_unit]
  exact Iff.rfl

/-- Every entry of the result lies in some point's block: row r in the block of point r / 4000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_3 _, ?_⟩
  rw [mem_blk]
  obtain ⟨-, -, -, -, -, -, e0, e1⟩ := idx_facts ⟨(i 0).val / 4000, by rw [hN]; omega⟩
  intro a
  match a with
  | ⟨0, _⟩ =>
    show win0_3.index _ (0 : Fin 2) * 4000 ≤ (i 0).val ∧ (i 0).val < win0_3.index _ (0 : Fin 2) * 4000 + 4000
    rw [e0]; show (i 0).val / 4000 * 4000 ≤ (i 0).val ∧ (i 0).val < (i 0).val / 4000 * 4000 + 4000; omega
  | ⟨1, _⟩ =>
    show win0_3.index _ (1 : Fin 2) * 128 ≤ (i 1).val ∧ (i 1).val < win0_3.index _ (1 : Fin 2) * 128 + 128
    rw [e1]; omega

/-- The result array after the run. -/
theorem final (c : Dev nD) :
    (dats m 0 c).arrAt 3 cfg0.N
      = denseOut (V m c (Pipeline.arrRef spec0 0)) (V m c (Pipeline.arrRef spec0 1)) (V m c (Pipeline.arrRef spec0 2)) :=
  (dats m 0 c).arrAt_eq_of_cover 3 _ (fun t _ => flushed_eq m c t) cover

end Cert.KernelIdeal.DenseArray

end
-- ==== Proof.HostStage.lean ====
/-
  What the dense stage is launched on. Before the region the host computes, from the argument arrays,
    * the source row of every edge: the edge's source id clamped into [0, 99999] (a wrap of negative ids follows the
      clamp and so never fires on its own, but it is part of the term);
    * the aggregated features: the rows of the node features gathered at those source rows, scaled by the edge
      values, and summed into the row of each edge's destination id, starting from zero;
    * the 256×128 matrix whose upper half is `weight` and lower half `weight_r` (narrowed to bf16, which is the
      identity on extended reals).
  Here these are named as functions of the arguments, and the two arrays the region's windows stage are shown to be them.
-/
import proofs.«431246_j3023656976523_3_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.HostStage

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- An edge's source id clamped into [0, 99999]. -/
def clampSrc (src : IVec S1600000 32) : IVec S1600000 32 :=
  minsi (broadcastInDim S1600000 ![] bcast_S_S1600000 (id (constantI S_ 32 99999#32)))
    (maxsi (broadcastInDim S1600000 ![] bcast_S_S1600000 (id (constantI S_ 32 0#32))) src)

/-- The row of the node features each edge reads, given its (already prepared) source id: a negative id is moved up
    by the number of rows, any other id is taken as it is. -/
def wrapSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The aggregated features: for every edge the row `rows e` of `x` scaled by `val e`, summed into row `dst e`. -/
def aggregate (x : FVec F S100000x128 .f32) (val : FVec F S1600000 .f32) (rows dst : IVec S1600000 32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf (broadcastInDim S1600000x128 ![0, 1] bcast_S1600000x1_S1600000x128_0_1
        (broadcastInDim S1600000x1 ![0] bcast_S1600000_S1600000x1_0 val))
      (Host.gather gather_S100000x128_S1600000x1_S1600000x128_1_0_n_n_0_1_1128 x
        (broadcastInDim S1600000x1 ![0] bcast_S1600000_S1600000x1_0 rows)))

/-- The two weight matrices one above the other. -/
def stacked (w wr : FVec F S128x128 .f32) : FVec F S256x128 .bf16 :=
  truncf .bf16 (concatenate S256x128 0 [⟨S128x128, w⟩, ⟨S128x128, wr⟩] concatenates_S128x128_S128x128_S256x128_d0)
    bitsLt_bf16_f32

variable (m : (ℓ : Loc nD τ sig) → Buf (Elt F) ℓ)

set_option maxHeartbeats 4000000 in
/-- The array window 0 stages is the aggregated features of the arguments. -/
theorem V_hi (c : Dev nD) :
    (V m c main_v13 : S100000x128.Idx → F .f32)
      = aggregate (m ((c : Thread nD τ).loc main_arg0)) (m ((c : Thread nD τ).loc main_arg2))
          (wrapSrc (clampSrc (m ((c : Thread nD τ).loc main_arg5)))) (m ((c : Thread nD τ).loc main_arg6)) := by
  dsimp only [Gen.V]
  simp only [Gen.hostOps0, Gen.hostOps0_1, Gen.hostOps0_2, List.flatten_cons, List.flatten_nil, List.append_nil,
    List.cons_append, List.nil_append]
  after_results
  rfl

set_option maxHeartbeats 4000000 in
/-- The array window 2 stages is the stacked weights. -/
theorem V_w (c : Dev nD) :
    (V m c main_v15 : S256x128.Idx → F .bf16)
      = stacked (m ((c : Thread nD τ).loc main_arg3)) (m ((c : Thread nD τ).loc main_arg4)) := by
  dsimp only [Gen.V]
  simp only [Gen.hostOps0, Gen.hostOps0_1, Gen.hostOps0_2, List.flatten_cons, List.flatten_nil, List.append_nil,
    List.cons_append, List.nil_append]
  after_results
  rfl

/-! ## The stacked weights read at a row -/

/-- A row among the first 128 of the stacked matrix is that row of the first. -/
theorem stacked_upper (w wr : FVec Ideal S128x128 .f32) (k : Fin 128) (j : Fin 128) :
    stacked w wr (ix2 (Fin.castAdd 128 k) j) = w (ix2 k j) :=
  concatenate_pair_apply_left (0 : Fin S256x128.rank) w wr concatenates_S128x128_S128x128_S256x128_d0
    (ix2 (Fin.castAdd 128 k) j) rfl (ix2 k j) (fun d => match d with | ⟨0, _⟩ => rfl | ⟨1, _⟩ => rfl)

/-- A row among the last 128 of the stacked matrix is the row 128 above it of the second. -/
theorem stacked_lower (w wr : FVec Ideal S128x128 .f32) (k : Fin 128) (j : Fin 128) :
    stacked w wr (ix2 (Fin.natAdd 128 k) j) = wr (ix2 k j) :=
  concatenate_pair_apply_right (0 : Fin S256x128.rank) w wr concatenates_S128x128_S128x128_S256x128_d0
    (ix2 (Fin.natAdd 128 k) j) rfl rfl (ix2 k j)
    (fun d hd => match d, hd with | ⟨0, _⟩, hd => absurd rfl hd | ⟨1, _⟩, _ => rfl)
    (by show k.val + 128 = 128 + k.val; omega)

end Cert.KernelIdeal.HostStage

end
-- ==== Proof.SrcRows.lean ====
/-
  The row each edge reads, under the precondition: the source id itself, on both roads.
  The kernel's host code clamps the ids into [0, 99999] and then applies the wrap of negative ids; the reference applies
  only the wrap. Where every id is a row number both leave the ids as they are.
-/
import proofs.«431246_j3023656976523_3_alg».proof.Proof.HostStage
import proofs.«431246_j3023656976523_3_alg».proof.Proof.SrcRange

noncomputable section

namespace Cert.KernelIdeal.HostStage

open Cert.KernelIdeal Cert.KernelIdeal.Gen Idealize.ShloMosaic Cert.SrcRange

/-- The wrap of negative ids leaves row numbers as they are. -/
theorem wrap_rows (src : IVec S1600000 32) (h : ∀ e, IsRow (src e)) : wrapSrc src = src :=
  funext fun e => wrap_row (h e) _

/-- The clamp leaves row numbers as they are. -/
theorem clamp_rows (src : IVec S1600000 32) (h : ∀ e, IsRow (src e)) : clampSrc src = src :=
  funext fun e => clamp_row (h e)

/-- So does the clamp followed by the wrap. -/
theorem kernel_rows (src : IVec S1600000 32) (h : ∀ e, IsRow (src e)) : wrapSrc (clampSrc src) = src := by
  rw [clamp_rows src h, wrap_rows src h]

end Cert.KernelIdeal.HostStage

end
-- ==== Proof.RefValue.lean ====
/-
  The reference's result, read entry by entry, is the same function of the arguments as the dense stage's.

  The reference gathers, scales and scatter-adds exactly as the kernel's host code does, at the wrapped source ids; under
  the precondition the wrap does nothing. It then multiplies the aggregated features by `weight`, the node features by
  `weight_r`, and adds the two products: at entry (r, j)
      ∑_{k < 128} hi(r, k) · weight(k, j)  +  ∑_{k < 128} x(r, k) · weight_r(k, j),
  which is the dense stage's formula once the stacked matrix is read at its upper and lower rows.
-/
import proofs.«431246_j3023656976523_3_alg».proof.Proof.Gen.ReferenceIdeal.Read
import proofs.«431246_j3023656976523_3_alg».proof.Proof.DenseArray
import proofs.«431246_j3023656976523_3_alg».proof.Proof.SrcRows

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.KernelIdeal.HostStage (aggregate wrapSrc stacked stacked_upper stacked_lower wrap_rows)
open Cert.KernelIdeal.DenseArray (denseOut inRow inCol)
open Cert.SrcRange (IsRow)

/-- The function both programs compute: the dense stage's formula on the aggregated features of the arguments. -/
def result (x0 : FVec Ideal S100000x128 .f32) (x2 : FVec Ideal S1600000 .f32) (x3 x4 : FVec Ideal S128x128 .f32)
    (x5 x6 : IVec S1600000 32) : S100000x128.Idx → EReal :=
  denseOut (aggregate (F := Ideal) x0 x2 x5 x6) x0 (stacked (F := Ideal) x3 x4)

/-- The reference's aggregated features are the kernel's host code's, at the wrapped source ids. -/
theorem hi_eq (x0 : FVec Ideal S100000x128 .f32) (x2 : FVec Ideal S1600000 .f32) (x5 x6 : IVec S1600000 32) :
    val_main_v12 (F := Ideal) x0 x2 x5 x6 = aggregate (F := Ideal) x0 x2 (wrapSrc x5) x6 := rfl

theorem lidx_eq (i : S100000x128.Idx) (k : Fin 128) : lidx_main_v13 i k = inRow i k :=
  funext fun a => by match a with | ⟨0, _⟩ => rfl | ⟨1, _⟩ => rfl
theorem ridx_eq (i : S100000x128.Idx) (k : Fin 128) :
    ridx_main_v13 i k = ix2 (n0 := 128) (n1 := 128) k ⟨(i 1).val, (i 1).isLt⟩ :=
  funext fun a => by match a with | ⟨0, _⟩ => rfl | ⟨1, _⟩ => rfl
theorem lidx_eq' (i : S100000x128.Idx) (k : Fin 128) : lidx_main_v14 i k = inRow i k :=
  funext fun a => by match a with | ⟨0, _⟩ => rfl | ⟨1, _⟩ => rfl
theorem ridx_eq' (i : S100000x128.Idx) (k : Fin 128) :
    ridx_main_v14 i k = ix2 (n0 := 128) (n1 := 128) k ⟨(i 1).val, (i 1).isLt⟩ :=
  funext fun a => by match a with | ⟨0, _⟩ => rfl | ⟨1, _⟩ => rfl

/-- Where every source id is a row number, the reference's result is `result` of its arguments. -/
theorem ref_value (x0 : FVec Ideal S100000x128 .f32) (x2 : FVec Ideal S1600000 .f32) (x3 x4 : FVec Ideal S128x128 .f32)
    (x5 x6 : IVec S1600000 32) (h : ∀ e, IsRow (x5 e)) :
    val_main_v15 (F := Ideal) x0 x2 x3 x4 x5 x6 = result x0 x2 x3 x4 x5 x6 := by
  funext i
  rw [val_main_v15_apply, val_main_v13_apply, val_main_v14_apply, hi_eq, wrap_rows x5 h, Ideal.addf_def]
  unfold result denseOut
  refine congrArg₂ (· + ·) ?_ ?_
  · refine Finset.sum_congr rfl fun k _ => ?_
    rw [lidx_eq, ridx_eq, ← stacked_upper x3 x4 k ⟨(i 1).val, (i 1).isLt⟩]
  · refine Finset.sum_congr rfl fun k _ => ?_
    rw [lidx_eq', ridx_eq', ← stacked_lower x3 x4 k ⟨(i 1).val, (i 1).isLt⟩]

end Cert.ReferenceIdeal.RefValue

end
-- ==== Proof.DenseRun.lean ====
/-
  The kernel's run, read: under the precondition the result array ends at the dense stage's formula on the aggregated
  features of the ARGUMENTS — the arrays the region's windows stage are the host code's terms of the arguments, and where
  every source id is a row number the clamp and the wrap in front of the gather do nothing.
-/
import proofs.«431246_j3023656976523_3_alg».proof.Proof.DenseArray
import proofs.«431246_j3023656976523_3_alg».proof.Proof.SrcRows
import proofs.«431246_j3023656976523_3_alg».proof.Proof.RefValue

noncomputable section

namespace Cert.KernelIdeal.DenseRun

open Cert.KernelIdeal Cert.KernelIdeal.Gen Cert.KernelIdeal.Value Idealize.ShloMosaic Idealize.ShloMosaic.TcCoe
open Idealize.SL.Sem
open Cert.SrcRange (IsRow)
open Cert.ReferenceIdeal.RefValue (result)

variable (m : (ℓ : Loc nD τ sig) → Buf (Elt Ideal) ℓ) (ρ : Dev nD → PrngReg)

/-- The result array after the run, for whatever the three staged arrays are known to be. -/
theorem final_of (c : Dev nD) (A0 A1 : S100000x128.Idx → EReal) (A2 : S256x128.Idx → EReal)
    (h0 : V m c (Pipeline.arrRef spec0 0) = A0) (h1 : V m c (Pipeline.arrRef spec0 1) = A1)
    (h2 : V m c (Pipeline.arrRef spec0 2) = A2) :
    (dats m 0 c).arrAt 3 cfg0.N = DenseArray.denseOut A0 A1 A2 := by
  subst h0 h1 h2
  exact DenseArray.final m c

/-- The result array after the run, as `result` of the arguments. -/
theorem final_args (c : Dev nD) (h : ∀ e, IsRow (m ((c : Thread nD τ).loc main_arg5) e)) :
    (dats m 0 c).arrAt 3 cfg0.N
      = result (m ((c : Thread nD τ).loc main_arg0)) (m ((c : Thread nD τ).loc main_arg2))
          (m ((c : Thread nD τ).loc main_arg3)) (m ((c : Thread nD τ).loc main_arg4))
          (m ((c : Thread nD τ).loc main_arg5)) (m ((c : Thread nD τ).loc main_arg6)) := by
  refine (final_of m c _ _ _ (HostStage.V_hi m c) (V_main_arg0 m c) (HostStage.V_w m c)).trans ?_
  rw [HostStage.kernel_rows _ h]
  rfl

/-- The kernel's run with its result named. -/
theorem run (h : ∀ (c : Dev nD) e, IsRow (m ((c : Thread nD τ).loc main_arg5) e)) :
    θ_run defs (onTc (τ := τ) (main (F := Ideal))) ⟨m, fun _ => 0, ρ⟩ fun r => ∀ c : Dev nD,
      r.2.mem ((c : Thread nD τ).loc main_v16)
          = result (m ((c : Thread nD τ).loc main_arg0)) (m ((c : Thread nD τ).loc main_arg2))
              (m ((c : Thread nD τ).loc main_arg3)) (m ((c : Thread nD τ).loc main_arg4))
              (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hr c => ⟨(hr c).1.trans (final_args m c (h c)), (hr c).2⟩) (Value.run_blocks m ρ)

end Cert.KernelIdeal.DenseRun

end
-- ==== Proof.lean ====
/-
  Graph convolution with a residual term: out = (A · x) · weight + x · weight_r, where A · x is the sparse product in
  coordinate form — for every edge the source row of x scaled by the edge value, summed into the destination row.

  Both programs compute A · x on the host, by the same gather, scaling and scatter-add. They differ in how a source id
  becomes a row number: the reference moves a negative id up by the number of rows; the kernel first clamps the id into
  [0, 99999]. The precondition says every source id is a row number already (0 ≤ id < 100000), and then both leave it as
  it is (Proof/SrcRange.lean, Proof/SrcRows.lean), so the two aggregated arrays are one term of the arguments
  (Proof/HostStage.lean).

  The dense part is where the kernel runs: over 25 blocks of 4000 rows it multiplies [A·x | x] (4000×256) by the
  256×128 matrix that stacks weight over weight_r. On the extended reals a change of float format is the identity and a
  256-term sum splits into its two 128-term halves (Proof/DenseBlock.lean), so entry (r, j) of the kernel's result is
      ∑_k (A·x)(r, k) · weight(k, j) + ∑_k x(r, k) · weight_r(k, j)
  for every row r (Proof/DenseArray.lean, Proof/DenseRun.lean) — the reference's two products added
  (Proof/RefValue.lean). Only commutativity and associativity of the extended reals' addition are used; finiteness of the
  float inputs is not.

  The three frames are the generated ones (the reference's is its generated run with the result dropped); the
  idealization rewrote nothing, so `preserves` is trivial.
-/
import proofs.«431246_j3023656976523_3_alg».proof.Defs
import proofs.«431246_j3023656976523_3_alg».proof.Proof.Gen.Kernel
import proofs.«431246_j3023656976523_3_alg».proof.Proof.Gen.Kernel.Skeleton
import proofs.«431246_j3023656976523_3_alg».proof.Proof.Gen.Kernel.Launch
import proofs.«431246_j3023656976523_3_alg».proof.Proof.Gen.Kernel.Points
import proofs.«431246_j3023656976523_3_alg».proof.Proof.Gen.Kernel.Frame
import proofs.«431246_j3023656976523_3_alg».proof.Proof.Gen.KernelIdeal
import proofs.«431246_j3023656976523_3_alg».proof.Proof.Gen.KernelIdeal.Skeleton
import proofs.«431246_j3023656976523_3_alg».proof.Proof.Gen.KernelIdeal.Launch
import proofs.«431246_j3023656976523_3_alg».proof.Proof.Gen.KernelIdeal.Points
import proofs.«431246_j3023656976523_3_alg».proof.Proof.Gen.KernelIdeal.Frame
import proofs.«431246_j3023656976523_3_alg».proof.Proof.Gen.ReferenceIdeal
import proofs.«431246_j3023656976523_3_alg».proof.Proof.Gen.Pre_finite_inputs
import proofs.«431246_j3023656976523_3_alg».proof.Proof.Gen.KernelIdeal.Value
import proofs.«431246_j3023656976523_3_alg».proof.Proof.Gen.ReferenceIdeal.Run
import proofs.«431246_j3023656976523_3_alg».proof.Proof.Gen.ReferenceIdeal.Read
import proofs.«431246_j3023656976523_3_alg».proof.Proof.SrcRange
import proofs.«431246_j3023656976523_3_alg».proof.Proof.DenseRun
import proofs.«431246_j3023656976523_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, with every source id a row number, both runs end with the result array at
    the same function of the arguments. -/
theorem algebraic : Cert.algebraic_KernelIdeal_ReferenceIdeal := by
  intro m ρ m' ρ' hpre hagree
  have hrows : ∀ (c : Dev Cert.KernelIdeal.nD) e, Cert.SrcRange.IsRow
      (m ((c.tc : Thread Cert.KernelIdeal.nD Cert.KernelIdeal.τ).loc Cert.KernelIdeal.main_arg5) e) :=
    fun c e => Cert.SrcRange.rows_of_pre _ _ _ _ _ _ _ (hpre c) e
  refine ⟨_, Cert.KernelIdeal.DenseRun.run m ρ hrows, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v15_eq, a0, a2, a3, a4, a5, a6]
  exact Cert.ReferenceIdeal.RefValue.ref_value _ _ _ _ _ _ (hrows c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
